-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  main_v23

def fn {F : FTy → Type} [FloatOps F] (main_arg0 : FVec F S4x4096x2048 .f32) (main_arg1 : FVec F S2048x2048 .f32) (main_arg2 : FVec F S2048 .f32) (main_arg3 : FVec F S16x2048 .f32) (main_arg4 : FVec F S2048x16 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S16384x2048 : Shape := ⟨2, ![16384, 2048]⟩
abbrev S1x2048 : Shape := ⟨2, ![1, 2048]⟩
abbrev S512x2048 : Shape := ⟨2, ![512, 2048]⟩
abbrev S512x16 : Shape := ⟨2, ![512, 16]⟩
abbrev S1x512 : Shape := ⟨2, ![1, 512]⟩
abbrev S512x512 : Shape := ⟨2, ![512, 512]⟩
abbrev S2048x512 : Shape := ⟨2, ![2048, 512]⟩
abbrev S16x512 : Shape := ⟨2, ![16, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S512x16, .f32⟩
  | .local _ .vmem, ⟨6, _⟩ => ⟨S512x16, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  transposes_S512x2048_p1_0_S2048x512 : S512x2048.Transposes [1, 0] S2048x512
  inb_S16x2048_S16x2048_0_0 : ∀ a, (![0, 0] : Fin 2 → Nat) a + S16x2048.size a ≤ S16x2048.size a
  h_S16x2048 : 0 < S16x2048.numel
  transposes_S16x2048_p1_0_S2048x16 : S16x2048.Transposes [1, 0] S2048x16
  inb_S512x16_S512x16_0_0 : ∀ a, (![0, 0] : Fin 2 → Nat) a + S512x16.size a ≤ S512x16.size a
  h_S512x16 : 0 < S512x16.numel
  transposes_S512x16_p1_0_S16x512 : S512x16.Transposes [1, 0] S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x2048_S4x4096x2048 : S16384x2048.ShapeCasts S4x4096x2048
  dot_S512x2048_S2048x512_S512x512_1_0_0_1_n_n_wf : DotDims.WF S512x2048 S2048x512 S512x512 [1] [0] [0] [1] [] []
  dot_S512x2048_S2048x16_S512x16_1_0_0_1_n_n_wf : DotDims.WF S512x2048 S2048x16 S512x16 [1] [0] [0] [1] [] []
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S2048x16.size a
  hwx0_3 : ∀ i : grid0.Coords, EltTy.bits .f32 = 32 ∨ (Rect.block (s := S2048x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x2048.size a
  hwx0_5 : ∀ i : grid0.Coords, EltTy.bits .f32 = 32 ∨ (Rect.block (s := S16384x2048) S512x512.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S1x1x2048 : Shape := ⟨3, ![1, 1, 2048]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S4x4096x2048, .f32⟩
  | .hbm, ⟨6, _⟩ => ⟨S1x1x2048, .f32⟩
  | .hbm, ⟨7, _⟩ => ⟨S4x4096x2048, .f32⟩
  | .hbm, ⟨8, _⟩ => ⟨S4x4096x2048, .f32⟩
  | .hbm, ⟨9, _⟩ => ⟨S4x4096x16, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []
  dot_S4x4096x2048_S16x2048_S4x4096x16_2_1_01_0_n_n_wf : DotDims.WF S4x4096x2048 S16x2048 S4x4096x16 [2] [1] [0, 1] [0] [] []
  dot_S4x4096x16_S2048x16_S4x4096x2048_2_1_01_0_n_n_wf : DotDims.WF S4x4096x16 S2048x16 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x2048_S16x2048_S4x4096x16_2_1_01_0_n_n : DotDims S4x4096x2048 S16x2048 S4x4096x16 where
  lhsContracting := [2]
  rhsContracting := [1]
  lhsNonContracting := [0, 1]
  rhsNonContracting := [0]
  lhsBatch := []
  rhsBatch := []
  wf := dot_S4x4096x2048_S16x2048_S4x4096x16_2_1_01_0_n_n_wf
def dot_S4x4096x16_S2048x16_S4x4096x2048_2_1_01_0_n_n : DotDims S4x4096x16 S2048x16 S4x4096x2048 where
  lhsContracting := [2]
  rhsContracting := [1]
  lhsNonContracting := [0, 1]
  rhsNonContracting := [0]
  lhsBatch := []
  rhsBatch := []
  wf := dot_S4x4096x16_S2048x16_S4x4096x2048_2_1_01_0_n_n_wf

class Facts : Prop extends Facts₀ where

variable [Facts]
-- ==== Proof.LoraSpec.lean ====
/-
  A linear layer with a rank-16 additive update, entry by entry.

  For one row of activations `x` (length 2048), one row `w` of the base weight, a bias `β`, the sixteen rows `a r` of the
  down-projection and the sixteen entries `b r` of one row of the up-projection, the output entry is

      (Σ_d x d · w d + β) + (Σ_r (Σ_d x d · a r d) · b r) · 1.0 .

  The same expression is read three ways: over one 512 × 512 tile of the output (rows of the tile's operand blocks), over
  the output laid out as 16384 × 2048 rows, and over the 4 × 4096 × 2048 batch. The three agree because flattening the two
  leading axes sends (β, s) to row β · 4096 + s and leaves the feature axis alone.
-/
import Idealize.ShloMosaic.PureOps.Ideal.Laws
import Idealize.ShloMosaic.Lib.ValueIdx
import Idealize.ShloMosaic.Lib.Pipeline.Value

noncomputable section

namespace Cert.LoraSpec

open Idealize.ShloMosaic Idealize.ShloMosaic.ValueIdx

/-- One output entry from a row of activations, a row of the base weight, a bias entry, the down-projection's rows and a row of
    the up-projection. The trailing factor is the adapter's scale, the float 1.0, kept as its word. -/
def entry (x w : Fin 2048 → EReal) (β : EReal) (a : Fin 16 → Fin 2048 → EReal) (b : Fin 16 → EReal) : EReal :=
  (∑ d : Fin 2048, x d * w d + β) + (∑ r : Fin 16, (∑ d : Fin 2048, x d * a r d) * b r) * Ideal.ofBits .f32 0x3F800000#32

/-- A 512 × 512 output tile from its operand blocks: 512 activation rows, 512 weight rows, the whole down-projection, 512 rows of
    the up-projection and 512 bias entries. -/
def tile (x0 w0 : (⟨2, ![512, 2048]⟩ : Shape).Idx → EReal) (a0 : (⟨2, ![16, 2048]⟩ : Shape).Idx → EReal)
    (b0 : (⟨2, ![512, 16]⟩ : Shape).Idx → EReal) (β0 : (⟨2, ![1, 512]⟩ : Shape).Idx → EReal) :
    (⟨2, ![512, 512]⟩ : Shape).Idx → EReal := fun j =>
  entry (fun d => x0 (ix2 (j 0) d)) (fun d => w0 (ix2 (j 1) d)) (β0 (ix2 (0 : Fin 1) (j 1)))
    (fun r d => a0 (ix2 r d)) (fun r => b0 (ix2 (j 1) r))

/-- The output as 16384 rows of 2048 features, from the activations as rows and the bias as a one-row matrix. -/
def rows (x : (⟨2, ![16384, 2048]⟩ : Shape).Idx → EReal) (w : (⟨2, ![2048, 2048]⟩ : Shape).Idx → EReal)
    (a : (⟨2, ![16, 2048]⟩ : Shape).Idx → EReal) (b : (⟨2, ![2048, 16]⟩ : Shape).Idx → EReal)
    (β : (⟨2, ![1, 2048]⟩ : Shape).Idx → EReal) : (⟨2, ![16384, 2048]⟩ : Shape).Idx → EReal := fun i =>
  entry (fun d => x (ix2 (i 0) d)) (fun d => w (ix2 (i 1) d)) (β (ix2 (0 : Fin 1) (i 1)))
    (fun r d => a (ix2 r d)) (fun r => b (ix2 (i 1) r))

/-- The output over the batch: 4 × 4096 positions of 2048 features. -/
def batch (x : (⟨3, ![4, 4096, 2048]⟩ : Shape).Idx → EReal) (w : (⟨2, ![2048, 2048]⟩ : Shape).Idx → EReal)
    (β : (⟨1, ![2048]⟩ : Shape).Idx → EReal) (a : (⟨2, ![16, 2048]⟩ : Shape).Idx → EReal)
    (b : (⟨2, ![2048, 16]⟩ : Shape).Idx → EReal) : (⟨3, ![4, 4096, 2048]⟩ : Shape).Idx → EReal := fun i =>
  entry (fun d => x (ix3 (i 0) (i 1) d)) (fun d => w (ix2 (i 2) d)) (β (ix1 (i 2)))
    (fun r d => a (ix2 r d)) (fun r => b (ix2 (i 2) r))

/-- Flattening the batch axes, computing by rows, and unflattening is the batch form: row β · 4096 + s of the flattened
    activations is position (β, s), and the one-row bias matrix holds the bias vector. -/
theorem unflatten_rows (x : (⟨3, ![4, 4096, 2048]⟩ : Shape).Idx → EReal) (w : (⟨2, ![2048, 2048]⟩ : Shape).Idx → EReal)
    (β : (⟨1, ![2048]⟩ : Shape).Idx → EReal) (a : (⟨2, ![16, 2048]⟩ : Shape).Idx → EReal)
    (b : (⟨2, ![2048, 16]⟩ : Shape).Idx → EReal)
    (hx : (⟨3, ![4, 4096, 2048]⟩ : Shape).ShapeCasts ⟨2, ![16384, 2048]⟩)
    (hβ : (⟨1, ![2048]⟩ : Shape).ShapeCasts ⟨2, ![1, 2048]⟩)
    (ho : (⟨2, ![16384, 2048]⟩ : Shape).ShapeCasts ⟨3, ![4, 4096, 2048]⟩) :
    shapeCast ⟨3, ![4, 4096, 2048]⟩ (rows (shapeCast ⟨2, ![16384, 2048]⟩ x hx) w a b (shapeCast ⟨2, ![1, 2048]⟩ β hβ)) ho
      = batch x w β a b := by
  funext i
  obtain ⟨p, s, o, rfl⟩ : ∃ (p : Fin 4) (s : Fin 4096) (o : Fin 2048), i = ix3 p s o := ⟨i 0, i 1, i 2, eq_ix3 i⟩
  have hrow : p.val * 4096 + s.val < 16384 := by have := p.isLt; have := s.isLt; omega
  rw [shapeCast_apply _ ho (ix3 p s o) (ix2 (⟨p.val * 4096 + s.val, hrow⟩ : Fin 16384) o) (by
    rw [Shape.rowMajor_val_two, Shape.rowMajor_val_three]; rfl)]
  unfold rows batch
  have ex : (fun d : Fin 2048 => shapeCast ⟨2, ![16384, 2048]⟩ x hx (ix2 (⟨p.val * 4096 + s.val, hrow⟩ : Fin 16384) d))
      = fun d => x (ix3 p s d) := funext fun d =>
    shapeCast_apply x hx _ (ix3 p s d) (by rw [Shape.rowMajor_val_two, Shape.rowMajor_val_three]; rfl)
  have eβ : shapeCast ⟨2, ![1, 2048]⟩ β hβ (ix2 (0 : Fin 1) o) = β (ix1 o) :=
    shapeCast_apply β hβ _ (ix1 o) (by
      rw [Shape.rowMajor_val_one, Shape.rowMajor_val_two]
      show o.val = (0 : Nat) * 2048 + o.val
      omega)
  show entry (fun d => shapeCast ⟨2, ![16384, 2048]⟩ x hx (ix2 (⟨p.val * 4096 + s.val, hrow⟩ : Fin 16384) d)) _
      (shapeCast ⟨2, ![1, 2048]⟩ β hβ (ix2 (0 : Fin 1) o)) _ _ = _
  rw [ex, eβ]

end Cert.LoraSpec

end
-- ==== Proof.RefIsBatch.lean ====
/-
  The reference's result, read entry by entry, is the batch form of the layer.

  Its three contractions are read as finite sums over the contracted axis: the base product contracts the feature axis of the
  activations at position (β, s) with row o of the base weight; the down-projection contracts the same row of activations with row r
  of the first factor; the up-projection contracts the sixteen intermediate values with row o of the second factor. The bias is laid
  along the last axis, and the scale is the constant 1.0 spread over the whole result.
-/
import proofs.«111418_j31980326486354_1_alg».proof.Proof.Gen.ReferenceIdeal.Read
import proofs.«111418_j31980326486354_1_alg».proof.Proof.LoraSpec

noncomputable section

namespace Cert.ReferenceIdeal.RefValue

open Cert.ReferenceIdeal Cert.ReferenceIdeal.Read Idealize.ShloMosaic Idealize.ShloMosaic.ValueIdx

/-- The base product's left index at output (β, s, o) and contraction coordinate d is (β, s, d). -/
theorem base_lhs (p : Fin 4) (s : Fin 4096) (o : Fin 2048) (d : Fin 2048) : lidx_main_v0 (ix3 p s o) d = ix3 p s d :=
  funext fun a => Fin.ext (by match a with | ⟨0, _⟩ => rfl | ⟨1, _⟩ => rfl | ⟨2, _⟩ => rfl)
/-- Its right index is (o, d). -/
theorem base_rhs (p : Fin 4) (s : Fin 4096) (o : Fin 2048) (d : Fin 2048) : ridx_main_v0 (ix3 p s o) d = ix2 o d :=
  funext fun a => Fin.ext (by match a with | ⟨0, _⟩ => rfl | ⟨1, _⟩ => rfl)
/-- The bias entry under output (β, s, o) is entry o of the bias vector. -/
theorem bias_idx (p : Fin 4) (s : Fin 4096) (o : Fin 2048) : idx_main_v1 (idx_main_v2 (ix3 p s o)) = ix1 o :=
  funext fun a => Fin.ext (by match a with | ⟨0, _⟩ => rfl)
/-- The up-projection's left index at output (β, s, o) and contraction coordinate r is (β, s, r). -/
theorem up_lhs (p : Fin 4) (s : Fin 4096) (o : Fin 2048) (r : Fin 16) : lidx_main_v5 (ix3 p s o) r = ix3 p s r :=
  funext fun a => Fin.ext (by match a with | ⟨0, _⟩ => rfl | ⟨1, _⟩ => rfl | ⟨2, _⟩ => rfl)
/-- Its right index is (o, r). -/
theorem up_rhs (p : Fin 4) (s : Fin 4096) (o : Fin 2048) (r : Fin 16) : ridx_main_v5 (ix3 p s o) r = ix2 o r :=
  funext fun a => Fin.ext (by match a with | ⟨0, _⟩ => rfl | ⟨1, _⟩ => rfl)
/-- The down-projection's left index at (β, s, r) and contraction coordinate d is (β, s, d). -/
theorem down_lhs (p : Fin 4) (s : Fin 4096) (r : Fin 16) (d : Fin 2048) : lidx_main_v4 (ix3 p s r) d = ix3 p s d :=
  funext fun a => Fin.ext (by match a with | ⟨0, _⟩ => rfl | ⟨1, _⟩ => rfl | ⟨2, _⟩ => rfl)
/-- Its right index is (r, d). -/
theorem down_rhs (p : Fin 4) (s : Fin 4096) (r : Fin 16) (d : Fin 2048) : ridx_main_v4 (ix3 p s r) d = ix2 r d :=
  funext fun a => Fin.ext (by match a with | ⟨0, _⟩ => rfl | ⟨1, _⟩ => rfl)

/-- The reference's result array is the batch form of the layer, of the same five arguments. -/
theorem reference_is_batch (x : (⟨S4x4096x2048, .f32⟩ : BufTy).Contents (Elt Ideal)) (w : (⟨S2048x2048, .f32⟩ : BufTy).Contents (Elt Ideal))
    (β : (⟨S2048, .f32⟩ : BufTy).Contents (Elt Ideal)) (a : (⟨S16x2048, .f32⟩ : BufTy).Contents (Elt Ideal))
    (b : (⟨S2048x16, .f32⟩ : BufTy).Contents (Elt Ideal)) :
    val_main_v8 (F := Ideal) x w β a b = Cert.LoraSpec.batch x w β a b := by
  funext i
  obtain ⟨p, s, o, rfl⟩ : ∃ (p : Fin 4) (s : Fin 4096) (o : Fin 2048), i = ix3 p s o := ⟨i 0, i 1, i 2, eq_ix3 i⟩
  rw [val_main_v8_apply, val_main_v3_apply, val_main_v7_apply, val_main_v0_apply, val_main_v2_apply, val_main_v1_apply,
    val_main_v5_apply, val_main_v6_apply, val_main_cst_apply]
  simp only [val_main_v4_apply, base_lhs, base_rhs, bias_idx, up_lhs, up_rhs, down_lhs, down_rhs]
  rfl

end Cert.ReferenceIdeal.RefValue

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.TileValue.lean ====
/-
  What the kernel body stores into a 512 × 512 output tile, entry by entry.

  The body contracts its 512 activation rows with 512 rows of the base weight (the weight block is transposed first, so entry
  (d, q) of the right operand is entry (q, d) of the block), adds the bias row spread down the tile, and adds the low-rank
  update: the activations against the transposed down-projection give 512 × 16 intermediates, which are contracted with the
  transposed block of the up-projection, and the result is multiplied by the scale 1.0. Each matrix product starts from the zero
  accumulator, so at an index it is the plain sum over the contracted axis; the narrowing of operands to a shorter float format
  changes no value over the extended reals. Entry (p, q) is therefore the layer's entry for activation row p, weight row q, bias
  entry q, and row q of the up-projection block.
-/
import proofs.«111418_j31980326486354_1_alg».proof.Proof.Gen.KernelIdeal.Skeleton
import proofs.«111418_j31980326486354_1_alg».proof.Proof.LoraSpec
import proofs.«111418_j31980326486354_1_alg».proof.Proof.LibPlainDot

noncomputable section

namespace Cert.KernelIdeal.TileValue

open Cert.KernelIdeal Cert.KernelIdeal.Gen Idealize.ShloMosaic Idealize.ShloMosaic.ValueIdx Cert.LibPlainDot

/-- A one-row matrix spread down 512 rows reads, at (p, q), the row's entry q. -/
theorem spread_row (v : FVec Ideal S1x512 .f32) (p q : Fin 512) :
    broadcastTo S512x512 (shapeCast S1x512 v shapeCasts_S1x512_S1x512) broadcasts_S1x512_S512x512 (ix2 p q) = v (ix2 (0 : Fin 1) q) := by
  rw [shapeCast_self]
  exact broadcastTo_apply v broadcasts_S1x512_S512x512 (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-- The base product at (p, q): activation row p against weight row q. -/
theorem base_product (x0 x1 : FVec Ideal S512x2048 .f32) (p q : Fin 512) :
    matmul dot_S512x2048_S2048x512_S512x512_1_0_0_1_n_n none
        (truncf .bf16 (shapeCast S512x2048 x0 shapeCasts_S512x2048_S512x2048) bitsLt_bf16_f32)
        (transpose S2048x512 [1, 0] (truncf .bf16 x1 bitsLt_bf16_f32) transposes_S512x2048_p1_0_S2048x512)
        (constant S512x512 .f32 0x00000000#32) (ix2 p q)
      = ∑ d : Fin 2048, x0 (ix2 p d) * x1 (ix2 q d) := by
  refine (matmul_plain_zero (M := 512) (K := 2048) (N := 512) none _ _ (ix2 p q)).trans ?_
  refine Finset.sum_congr rfl fun d _ => ?_
  refine congrArg₂ (· * ·) ?_ ?_
  · show shapeCast S512x2048 x0 shapeCasts_S512x2048_S512x2048 (ix2 p d) = _
    rw [shapeCast_self]
  · exact transpose2_apply (truncf .bf16 x1 bitsLt_bf16_f32) transposes_S512x2048_p1_0_S2048x512 d q

/-- The down-projection at (p, r): activation row p against row r of the first factor. -/
theorem down_product (x0 : FVec Ideal S512x2048 .f32) (x2 : FVec Ideal S16x2048 .f32) (p : Fin 512) (r : Fin 16) :
    matmul dot_S512x2048_S2048x16_S512x16_1_0_0_1_n_n none
        (truncf .bf16 (shapeCast S512x2048 x0 shapeCasts_S512x2048_S512x2048) bitsLt_bf16_f32)
        (transpose S2048x16 [1, 0] (truncf .bf16 x2 bitsLt_bf16_f32) transposes_S16x2048_p1_0_S2048x16)
        (constant S512x16 .f32 0x00000000#32) (ix2 p r)
      = ∑ d : Fin 2048, x0 (ix2 p d) * x2 (ix2 r d) := by
  refine (matmul_plain_zero (M := 512) (K := 2048) (N := 16) none _ _ (ix2 p r)).trans ?_
  refine Finset.sum_congr rfl fun d _ => ?_
  refine congrArg₂ (· * ·) ?_ ?_
  · show shapeCast S512x2048 x0 shapeCasts_S512x2048_S512x2048 (ix2 p d) = _
    rw [shapeCast_self]
  · exact transpose2_apply (truncf .bf16 x2 bitsLt_bf16_f32) transposes_S16x2048_p1_0_S2048x16 d r

/-- The up-projection at (p, q): the sixteen intermediates of row p against row q of the second factor's block. -/
theorem up_product (y : FVec Ideal S512x16 .f32) (x3 : FVec Ideal S512x16 .f32) (p q : Fin 512) :
    matmul dot_S512x16_S16x512_S512x512_1_0_0_1_n_n none
        (truncf .bf16 y bitsLt_bf16_f32)
        (transpose S16x512 [1, 0] (truncf .bf16 x3 bitsLt_bf16_f32) transposes_S512x16_p1_0_S16x512)
        (constant S512x512 .f32 0x00000000#32) (ix2 p q)
      = ∑ r : Fin 16, y (ix2 p r) * x3 (ix2 q r) := by
  refine (matmul_plain_zero (M := 512) (K := 16) (N := 512) none _ _ (ix2 p q)).trans ?_
  refine Finset.sum_congr rfl fun r _ => ?_
  refine congrArg₂ (· * ·) rfl ?_
  exact transpose2_apply (truncf .bf16 x3 bitsLt_bf16_f32) transposes_S512x16_p1_0_S16x512 r q

/-- The low-rank update at (p, q): the up-projection of the down-projected activation row p, against row q of the second factor's block. -/
theorem update_product (x0 : FVec Ideal S512x2048 .f32) (x2 : FVec Ideal S16x2048 .f32) (x3 : FVec Ideal S512x16 .f32) (p q : Fin 512) :
    matmul dot_S512x16_S16x512_S512x512_1_0_0_1_n_n none
        (truncf .bf16
          (matmul dot_S512x2048_S2048x16_S512x16_1_0_0_1_n_n none
            (truncf .bf16 (shapeCast S512x2048 x0 shapeCasts_S512x2048_S512x2048) bitsLt_bf16_f32)
            (transpose S2048x16 [1, 0] (truncf .bf16 x2 bitsLt_bf16_f32) transposes_S16x2048_p1_0_S2048x16)
            (constant S512x16 .f32 0x00000000#32))
          bitsLt_bf16_f32)
        (transpose S16x512 [1, 0] (truncf .bf16 x3 bitsLt_bf16_f32) transposes_S512x16_p1_0_S16x512)
        (constant S512x512 .f32 0x00000000#32) (ix2 p q)
      = ∑ r : Fin 16, (∑ d : Fin 2048, x0 (ix2 p d) * x2 (ix2 r d)) * x3 (ix2 q r) := by
  refine (up_product _ x3 p q).trans ?_
  exact Finset.sum_congr rfl fun r _ => congrArg (· * x3 (ix2 q r)) (down_product x0 x2 p r)

/-- The body's stored value is the layer's tile of its five operand blocks. -/
theorem payload_is_tile (x0 x1 : Vec Ideal S512x2048 .f32) (x2 : Vec Ideal S16x2048 .f32) (x3 : Vec Ideal S512x16 .f32)
    (x4 : Vec Ideal S1x512 .f32) :
    k0_pay1 (F := Ideal) x0 x1 x2 x3 x4 = Cert.LoraSpec.tile x0 x1 x2 x3 x4 := by
  funext j
  obtain ⟨p, q, rfl⟩ : ∃ (p : Fin 512) (q : Fin 512), j = ix2 p q := ⟨j 0, j 1, eq_ix2 j⟩
  unfold k0_pay1
  dsimp only
  rw [addf_apply, addf_apply, mulf_apply, base_product, spread_row, update_product]
  rfl

end Cert.KernelIdeal.TileValue

end
-- ==== Proof.RowsValue.lean ====
/-
  From tiles to the whole output: after the grid has run, the 16384 × 2048 output array holds the layer's row form.

  Grid point (i, j) of the 32 × 4 grid writes the tile of rows 512 i … 512 i + 511 and columns 512 j … 512 j + 511. Its operand blocks
  are rows 512 i … of the flattened activations (all 2048 features), rows 512 j … of the base weight, the whole down-projection,
  rows 512 j … of the up-projection and columns 512 j … of the one-row bias. A block's coordinate is always block index × block size
  + the coordinate inside the block, so entry (p, q) of the tile is the layer's entry at row 512 i + p and column 512 j + q of the
  arrays as the region finds them. The 128 tiles cover the array: index (r, k) lies in the tile of point (r / 512, k / 512).
-/
import proofs.«111418_j31980326486354_1_alg».proof.Proof.Gen.KernelIdeal.Frame
import proofs.«111418_j31980326486354_1_alg».proof.Proof.TileValue

set_option maxRecDepth 16384

noncomputable section

namespace Cert.KernelIdeal.RowsValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The layer's row form of the arrays as the region finds them on core `c`. -/
abbrev regionRows (c : Dev nD) : S16384x2048.Idx → Elt Ideal .f32 :=
  Cert.LoraSpec.rows (V m c main_v0) (V m c main_arg1) (V m c main_arg3) (V m c main_arg4) (V m c main_v1)

/-- The block indices of the six windows at a grid point, decided over the grid: the activations follow the output's row block and
    take every feature; the base weight, the up-projection and the bias follow the output's column block; the down-projection is
    whole; the output's block indices stay inside the 32 × 4 grid. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 31 ∧ win0_5.index t (1 : Fin 2) ≤ 3 :=
  (by decide +kernel : ∀ t : Fin grid0.N, _)

/-- Every tile of the 32 × 4 tiling is some grid point's. -/
theorem every_tile : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

/-- The activation block at point `t`, entry (p, d): the flattened activations at the output tile's row p, feature d. -/
theorem act_block (c : Dev nD) (t : Fin cfg0.N) (j : S512x512.Idx) (d : Fin 2048) :
    iblk m c 0 t (ix2 (j 0) d) = V m c main_v0 (ix2 ((((cfg0.win 5).blk t).view.emb j) 0) d) := by
  obtain ⟨e0, e1, -⟩ := block_indices t
  show V m c main_v0 (((cfg0.win 0).blk t).view.emb (ix2 (j 0) d)) = _
  refine congrArg (V m c main_v0) (funext fun a => Fin.ext ?_)
  match a with
  | ⟨0, _⟩ => show win0_0.index t (0 : Fin 2) * 512 + 1 * (j 0).val = win0_5.index t (0 : Fin 2) * 512 + 1 * (j 0).val; omega
  | ⟨1, _⟩ => show win0_0.index t (1 : Fin 2) * 2048 + 1 * d.val = d.val; omega

/-- The base-weight block at point `t`, entry (q, d): the base weight at the output tile's column q, feature d. -/
theorem weight_block (c : Dev nD) (t : Fin cfg0.N) (j : S512x512.Idx) (d : Fin 2048) :
    iblk m c 1 t (ix2 (j 1) d) = V m c main_arg1 (ix2 ((((cfg0.win 5).blk t).view.emb j) 1) d) := by
  obtain ⟨-, -, e0, e1, -⟩ := block_indices t
  show V m c main_arg1 (((cfg0.win 1).blk t).view.emb (ix2 (j 1) d)) = _
  refine congrArg (V m c main_arg1) (funext fun a => Fin.ext ?_)
  match a with
  | ⟨0, _⟩ => show win0_1.index t (0 : Fin 2) * 512 + 1 * (j 1).val = win0_5.index t (1 : Fin 2) * 512 + 1 * (j 1).val; omega
  | ⟨1, _⟩ => show win0_1.index t (1 : Fin 2) * 2048 + 1 * d.val = d.val; omega

/-- The down-projection's block is the whole array. -/
theorem down_block (c : Dev nD) (t : Fin cfg0.N) (r : Fin 16) (d : Fin 2048) :
    iblk m c 2 t (ix2 r d) = V m c main_arg3 (ix2 r d) := by
  obtain ⟨-, -, -, -, e0, e1, -⟩ := block_indices t
  show V m c main_arg3 (((cfg0.win 2).blk t).view.emb (ix2 r d)) = _
  refine congrArg (V m c main_arg3) (funext fun a => Fin.ext ?_)
  match a with
  | ⟨0, _⟩ => show win0_2.index t (0 : Fin 2) * 16 + 1 * r.val = r.val; omega
  | ⟨1, _⟩ => show win0_2.index t (1 : Fin 2) * 2048 + 1 * d.val = d.val; omega

/-- The up-projection block at point `t`, entry (q, r): the up-projection at the output tile's column q, rank coordinate r. -/
theorem up_block (c : Dev nD) (t : Fin cfg0.N) (j : S512x512.Idx) (r : Fin 16) :
    iblk m c 3 t (ix2 (j 1) r) = V m c main_arg4 (ix2 ((((cfg0.win 5).blk t).view.emb j) 1) r) := by
  obtain ⟨-, -, -, -, -, -, e0, e1, -⟩ := block_indices t
  show V m c main_arg4 (((cfg0.win 3).blk t).view.emb (ix2 (j 1) r)) = _
  refine congrArg (V m c main_arg4) (funext fun a => Fin.ext ?_)
  match a with
  | ⟨0, _⟩ => show win0_3.index t (0 : Fin 2) * 512 + 1 * (j 1).val = win0_5.index t (1 : Fin 2) * 512 + 1 * (j 1).val; omega
  | ⟨1, _⟩ => show win0_3.index t (1 : Fin 2) * 16 + 1 * r.val = r.val; omega

/-- The bias block at point `t`, entry (0, q): the one-row bias at the output tile's column q. -/
theorem bias_block (c : Dev nD) (t : Fin cfg0.N) (j : S512x512.Idx) :
    iblk m c 4 t (ix2 (0 : Fin 1) (j 1)) = V m c main_v1 (ix2 (0 : Fin 1) ((((cfg0.win 5).blk t).view.emb j) 1)) := by
  obtain ⟨-, -, -, -, -, -, -, -, e0, e1, -⟩ := block_indices t
  show V m c main_v1 (((cfg0.win 4).blk t).view.emb (ix2 (0 : Fin 1) (j 1))) = _
  refine congrArg (V m c main_v1) (funext fun a => Fin.ext ?_)
  match a with
  | ⟨0, _⟩ => show win0_4.index t (0 : Fin 2) * 1 + 1 * (0 : Nat) = 0; omega
  | ⟨1, _⟩ => show win0_4.index t (1 : Fin 2) * 512 + 1 * (j 1).val = win0_5.index t (1 : Fin 2) * 512 + 1 * (j 1).val; omega

/-- What point `t` writes back is tile `t` of the row form. -/
theorem written_tile (c : Dev nD) (t : Fin cfg0.N) :
    (dats m 0 c).flushed 5 t = ((cfg0.win 5).blk t).view.read (Elt Ideal) (regionRows m c) := by
  show (cfg0.win 5).cut (grid0.coords t) ((dats m 0 c).after 5 t) = _
  rw [after0_5]
  unfold out0_5
  rw [View.canon_unit_zero zero_offsets]
  simp only [View.ld_unit_zero (S := S512x2048) zero_offsets, View.ld_unit_zero (S := S16x2048) zero_offsets,
    View.ld_unit_zero (S := S512x16) zero_offsets, View.ld_unit_zero (S := S1x512) zero_offsets]
  rw [Cert.KernelIdeal.TileValue.payload_is_tile]
  funext j
  show Cert.LoraSpec.entry (fun d => iblk m c 0 t (ix2 (j 0) d)) (fun d => iblk m c 1 t (ix2 (j 1) d)) (iblk m c 4 t (ix2 (0 : Fin 1) (j 1)))
      (fun r d => iblk m c 2 t (ix2 r d)) (fun r => iblk m c 3 t (ix2 (j 1) r))
    = Cert.LoraSpec.entry (fun d => V m c main_v0 (ix2 ((((cfg0.win 5).blk t).view.emb j) 0) d))
      (fun d => V m c main_arg1 (ix2 ((((cfg0.win 5).blk t).view.emb j) 1) d))
      (V m c main_v1 (ix2 (0 : Fin 1) ((((cfg0.win 5).blk t).view.emb j) 1)))
      (fun r d => V m c main_arg3 (ix2 r d)) (fun r => V m c main_arg4 (ix2 ((((cfg0.win 5).blk t).view.emb j) 1) r))
  rw [funext (act_block m c t j), funext (weight_block m c t j), bias_block m c t j,
    funext (fun r => funext (down_block m c t r)), funext (up_block m c t j)]

/-- An index of the output array is in point `t`'s tile iff each coordinate is in the tile's range on its axis. -/
theorem mem_tile (t : Fin cfg0.N) (i : S16384x2048.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2).slice (win0_5.rect t)).set ↔ _
  rw [View.set_slice_whole, Rect.mem_set_unit]
  exact Iff.rfl

/-- The tiles cover the output array. -/
theorem tiles_cover (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := every_tile ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_tile]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The output array after the region is the row form of the arrays as the region finds them. -/
theorem region_output (c : Dev nD) : (dats m 0 c).arrAt 5 cfg0.N = regionRows m c :=
  (dats m 0 c).arrAt_eq_of_cover 5 (regionRows m c) (fun t _ => written_tile m c t) tiles_cover

end Cert.KernelIdeal.RowsValue

end
-- ==== Proof.BatchValue.lean ====
/-
  The kernel program's run, read as the batch form of the layer.

  Before the region the program flattens the two batch axes of the activations and recasts the bias vector as a one-row matrix; the
  region computes the row form of the layer from those; after the region the 16384 × 2048 rows are unflattened to 4 × 4096 × 2048.
  Flattening, the row form, and unflattening compose to the batch form of the five arguments.
-/
import proofs.«111418_j31980326486354_1_alg».proof.Proof.RowsValue

noncomputable section

namespace Cert.KernelIdeal.BatchValue

open Cert.KernelIdeal Cert.KernelIdeal.Gen Cert.KernelIdeal.RowsValue Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ) (ρ : Dev nD → PrngReg)

/-- The region finds the activations flattened to rows. -/
theorem flat_activations (c : Dev nD) :
    (V m c main_v0 : S16384x2048.Idx → Elt Ideal .f32)
      = shapeCast S16384x2048 (m ((c : Thread nD τ).loc main_arg0)) shapeCasts_S4x4096x2048_S16384x2048 := by
  show StableHlo.after hostOps0 (fun b => m (c, b)) (Proc.devRef .tc main_v0) = _
  after_results
  rfl

/-- The region finds the bias as a one-row matrix. -/
theorem row_bias (c : Dev nD) :
    (V m c main_v1 : S1x2048.Idx → Elt Ideal .f32)
      = shapeCast S1x2048 (m ((c : Thread nD τ).loc main_arg2)) shapeCasts_S2048_S1x2048 := by
  show StableHlo.after hostOps0 (fun b => m (c, b)) (Proc.devRef .tc main_v1) = _
  after_results
  rfl

/-- The program's result is the region's output array, unflattened. -/
theorem unflattened_result (c : Dev nD) :
    (Pipeline.afterTail₀ cfgs (dats m) 0 (V0 m) [hostOps1] c main_v3 : S4x4096x2048.Idx → Elt Ideal .f32)
      = shapeCast S4x4096x2048 ((dats m 0 c).arrAt 5 cfg0.N) shapeCasts_S16384x2048_S4x4096x2048 := by
  unfold Pipeline.afterTail₀
  show StableHlo.after hostOps1 _ (Proc.devRef .tc main_v3) = _
  after_results
  exact congrArg (fun A : S16384x2048.Idx → Elt Ideal .f32 => shapeCast S4x4096x2048 A shapeCasts_S16384x2048_S4x4096x2048)
    (Pipeline.withArrays_arr spec0 launch0.win.arr_inj c (V0 m c) (fun w => (dats m 0 c).arrAt w cfg0.N) 5)

/-- The layer's batch form of the five argument arrays of core `c`. -/
abbrev layer (c : Dev nD) : S4x4096x2048.Idx → Elt Ideal .f32 :=
  Cert.LoraSpec.batch (m ((c : Thread nD τ).loc main_arg0)) (m ((c : Thread nD τ).loc main_arg1)) (m ((c : Thread nD τ).loc main_arg2))
    (m ((c : Thread nD τ).loc main_arg3)) (m ((c : Thread nD τ).loc main_arg4))

/-- The program's result is the batch form of the argument arrays: the region's output is the row form of what the region finds
    (the flattened activations, the one-row bias and the three weight arrays as launched), and unflattening the row form of
    flattened activations is the batch form. -/
theorem result_is_layer (c : Dev nD) :
    (Pipeline.afterTail₀ cfgs (dats m) 0 (V0 m) [hostOps1] c main_v3 : S4x4096x2048.Idx → Elt Ideal .f32) = layer m c := by
  rw [unflattened_result, region_output]
  unfold regionRows
  rw [flat_activations, row_bias, V_main_arg1, V_main_arg3, V_main_arg4]
  exact Cert.LoraSpec.unflatten_rows _ _ _ _ _ _ _ _

/-- Every weakly fair execution of the kernel program terminates, with the result array at the batch form of the arguments and the
    arguments as launched. -/
theorem run : θ_run defs (onTc (τ := τ) (main (F := Ideal))) ⟨m, fun _ => 0, ρ⟩ (fun r => ∀ c : Dev nD,
      r.2.mem ((c.tc : Thread nD τ).loc main_v3) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (result_is_layer m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.BatchValue

end
-- ==== Proof.lean ====
/-
  A linear layer with a rank-16 additive update, computed tile by tile, against its plain reference.

  The kernel flattens the 4 × 4096 positions to 16384 rows and, for each of the 32 × 4 tiles of 512 rows × 512 output features, contracts the
  rows' 2048 features with the tile's rows of the base weight, adds the bias, and adds the low-rank update (the rows against the
  down-projection, then against the tile's rows of the up-projection) times the scale 1.0; the rows are then unflattened. The reference
  computes the same three contractions over the whole batch at once. Over the extended reals every contraction is a plain finite sum
  and the narrowing of the kernel's operands to a shorter float format changes nothing, so both programs compute, at every position
  (β, s) and output feature o,

      (Σ_d x[β,s,d] · W[o,d] + bias[o]) + (Σ_r (Σ_d x[β,s,d] · A[r,d]) · B[o,r]) · 1.0 ,

  the sums in the same order and the additions grouped the same way: the two results are one function of the arguments, with no algebraic
  law needed beyond reading each sum at its index, and no use of the inputs' finiteness.
-/
import proofs.«111418_j31980326486354_1_alg».proof.Defs
import proofs.«111418_j31980326486354_1_alg».proof.Proof.Gen.Kernel
import proofs.«111418_j31980326486354_1_alg».proof.Proof.Gen.Kernel.Skeleton
import proofs.«111418_j31980326486354_1_alg».proof.Proof.Gen.Kernel.Launch
import proofs.«111418_j31980326486354_1_alg».proof.Proof.Gen.Kernel.Points
import proofs.«111418_j31980326486354_1_alg».proof.Proof.Gen.Kernel.Frame
import proofs.«111418_j31980326486354_1_alg».proof.Proof.Gen.KernelIdeal
import proofs.«111418_j31980326486354_1_alg».proof.Proof.Gen.KernelIdeal.Skeleton
import proofs.«111418_j31980326486354_1_alg».proof.Proof.Gen.KernelIdeal.Launch
import proofs.«111418_j31980326486354_1_alg».proof.Proof.Gen.KernelIdeal.Points
import proofs.«111418_j31980326486354_1_alg».proof.Proof.Gen.KernelIdeal.Frame
import proofs.«111418_j31980326486354_1_alg».proof.Proof.Gen.ReferenceIdeal
import proofs.«111418_j31980326486354_1_alg».proof.Proof.Gen.Pre_finite_inputs
import proofs.«111418_j31980326486354_1_alg».proof.Proof.Gen.ReferenceIdeal.Run
import proofs.«111418_j31980326486354_1_alg».proof.Proof.Gen.ReferenceIdeal.Read
import proofs.«111418_j31980326486354_1_alg».proof.Proof.RefIsBatch
import proofs.«111418_j31980326486354_1_alg».proof.Proof.BatchValue
import Idealize.ShloMosaic.Adequacy
import Idealize.ShloMosaic.Init

noncomputable section

namespace Cert.Proof

open Idealize.ShloMosaic Idealize.SL.Sem Cert.Kernel

/-- The reference's run with its result dropped: it terminates and leaves its arguments as launched. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the layer's batch form of those arguments: the kernel
    program by its run read tile by tile, the reference by its run read one operation at a time. -/
theorem same_layer : Cert.algebraic_KernelIdeal_ReferenceIdeal := by
  intro m ρ m' ρ' _ hagree
  refine ⟨fun c => Cert.KernelIdeal.BatchValue.layer m c, Cert.KernelIdeal.BatchValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_is_batch,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  same_layer⟩

end Cert.Proof

end
